-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S600000 32) (main_arg2 : IVec S600000 32) (main_arg3 : FVec F S128x128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S1x128 : Shape := ⟨2, ![1, 128]⟩
abbrev S100000x1 : Shape := ⟨2, ![100000, 1]⟩
abbrev S256x128 : Shape := ⟨2, ![256, 128]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 46
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S100000x128, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S_, .f32⟩
  | .hbm, ⟨37, _⟩ => ⟨S600000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S1x128, .f32⟩
  | .hbm, ⟨43, _⟩ => ⟨S100000x1, .f32⟩
  | .hbm, ⟨44, _⟩ => ⟨S256x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  shapeCasts_S128_S1x128 : S128.ShapeCasts S1x128
  shapeCasts_S100000_S100000x1 : S100000.ShapeCasts S100000x1
  concatenates_S128x128_S128x128_S256x128_d0 : Shape.Concatenates [S128x128, S128x128] S256x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .f32⟩
  | .hbm, ⟨16, _⟩ => ⟨S100000x128, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S_, .f32⟩
  | .hbm, ⟨37, _⟩ => ⟨S600000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_cst : Ref sig .tc := ⟨.hbm, 51, rfl⟩
abbrev main_call0_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One layer of a graph convolution over 100000 nodes with 128 features each, as a function of arrays over the
  extended reals. For node `r` and output feature `q`:

      out r q = max ( Σ_k x r k · ws k q  +  Σ_k (agg r k / deg r) · wm k q  +  b q , 0 )

  where `agg` is the sum of the senders' rows gathered at each receiver and `deg` the clamped in-degree; both are
  taken here as given arrays, because the two programs compute them by the same operations.

  Also here, because it mentions no program: a sum over 256 = 128 + 128 indices is the sum of its two halves
  (only commutativity and associativity of `+`, so it holds on the extended reals without any finiteness).
-/
import Idealize.ShloMosaic.Lib.ValueIdx
import Idealize.ShloMosaic.Lib.Pipeline.Value
import Idealize.ShloMosaic.PureOps.Ideal.Laws

noncomputable section

namespace Cert.GraphConv

open Idealize.ShloMosaic Idealize.ShloMosaic.ValueIdx

/-- The layer: the node's own features through `ws`, the mean of its in-neighbours' features through `wm`, the
    bias, and the rectifier. The zero of the rectifier is kept as the word both programs print. -/
def layer (x agg : (⟨2, ![100000, 128]⟩ : Shape).Idx → EReal) (deg : (⟨1, ![100000]⟩ : Shape).Idx → EReal)
    (ws wm : (⟨2, ![128, 128]⟩ : Shape).Idx → EReal) (b : (⟨1, ![128]⟩ : Shape).Idx → EReal) :
    (⟨2, ![100000, 128]⟩ : Shape).Idx → EReal := fun i =>
  max (((∑ k : Fin 128, x (ix2 (i 0) k) * ws (ix2 k (i 1)))
        + ∑ k : Fin 128, Ideal.div (agg (ix2 (i 0) k)) (deg (ix1 (i 0))) * wm (ix2 k (i 1)))
      + b (ix1 (i 1))) (Ideal.ofBits .f32 0x00000000#32)

/-- The layer at node `r`, feature `q`. -/
theorem layer_at (x agg : (⟨2, ![100000, 128]⟩ : Shape).Idx → EReal) (deg : (⟨1, ![100000]⟩ : Shape).Idx → EReal)
    (ws wm : (⟨2, ![128, 128]⟩ : Shape).Idx → EReal) (b : (⟨1, ![128]⟩ : Shape).Idx → EReal) (r : Fin 100000) (q : Fin 128) :
    layer x agg deg ws wm b (ix2 r q)
      = max (((∑ k : Fin 128, x (ix2 r k) * ws (ix2 k q))
            + ∑ k : Fin 128, Ideal.div (agg (ix2 r k)) (deg (ix1 r)) * wm (ix2 k q))
          + b (ix1 q)) (Ideal.ofBits .f32 0x00000000#32) := rfl

/-- A sum over the 256 indices of a concatenated axis is the sum over the first 128 plus the sum over the last 128. -/
theorem sum_halves {M : Type*} [AddCommMonoid M] (f : Fin 256 → M) :
    ∑ k : Fin 256, f k = (∑ k : Fin 128, f (Fin.castAdd 128 k)) + ∑ k : Fin 128, f (Fin.natAdd 128 k) :=
  Fin.sum_univ_add (a := 128) (b := 128) f

end Cert.GraphConv

end
-- ==== Proof.LibColumn.lean ====
/-
  Two layout operations on a column, read at an index. A column is an array of shape `[a, 1]`.

  * `broadcastTo_a1_ab_apply`: a column broadcast along `b` lanes reads, at `(p, c)`, the column's entry of row `p`
    (a keepdims reduction result, or a per-row scale, laid against a matrix).
  * `shapeCast_a_a1_apply`: a vector `[a]` cast to a column reads, at `(p, 0)`, the vector's entry `p`
    (`v[:, None]`, or a reshape `(a,) → (a, 1)`).

  Both are stated over the literal-extent index constructors `ix1`, `ix2`, for any element type.
-/
import Idealize.ShloMosaic.Lib.ValueIdx
import Idealize.ShloMosaic.Lib.Pipeline.Value

noncomputable section

namespace Cert.Lib

open Idealize.ShloMosaic Idealize.ShloMosaic.ValueIdx

/-- An `[a, 1]` column broadcast along `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib

end
-- ==== Proof.Body.lean ====
/-
  What the kernel's body stores at row `p`, lane `q` of its output block, from the five blocks it loads:
  `x` (rows of node features), `a` (the same rows of the aggregated messages), `d` (the rows' degrees, one column),
  `w` (the two weight matrices stacked, 256 × 128) and `b` (the bias, one row).

  The body divides `a` by the degree column laid along the lanes, sets that beside `x` as one 5000 × 256 matrix,
  multiplies by `w` into a zero accumulator, adds the bias row and takes the maximum with zero. At the ideal values
  a change of float format is the identity and the product is the exact sum over the 256 contraction indices; the
  first 128 of them read `x` and the upper half of `w`, the last 128 read `a / d` and the lower half.
-/
import proofs.«409932_j59287728554034_3_alg».proof.Proof.Gen.KernelIdeal.Skeleton
import proofs.«409932_j59287728554034_3_alg».proof.Proof.Layer
import proofs.«409932_j59287728554034_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv.Body

open Cert.KernelIdeal Cert.KernelIdeal.Gen Cert.Lib Idealize.ShloMosaic Idealize.ShloMosaic.ValueIdx

/-! ## The product's operand indices, axis by axis -/

theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The 5000 × 256 by 256 × 128 product into a zero accumulator, at `(p, q)`: the sum over the 256 contraction
    indices of the left operand's row `p` times the right operand's column `q`. -/
theorem product_at (l : FVec Ideal S5000x256 .bf16) (r : FVec Ideal S256x128 .bf16) (p : Fin 5000) (q : Fin 128) :
    matmul dot_S5000x256_S256x128_S5000x128_1_0_0_1_n_n none l r (constant S5000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The concatenated left operand, at either side of the seam -/

/-- Left of the seam the 5000 × 256 matrix reads its first piece. -/
theorem beside_left (u v : S5000x128.Idx → EReal) (p : Fin 5000) (k : Fin 128) :
    concatenate S5000x256 1 [⟨S5000x128, u⟩, ⟨S5000x128, v⟩] concatenates_S5000x128_S5000x128_S5000x256_d1 (ix2 p (Fin.castAdd 128 k))
      = u (ix2 p k) :=
  concatenate_pair_apply_left (1 : Fin S5000x256.rank) u v concatenates_S5000x128_S5000x128_S5000x256_d1 _ rfl (ix2 p k)
    (fun b => by match b with
      | ⟨0, _⟩ => rfl
      | ⟨1, _⟩ => rfl)

/-- Right of the seam it reads its second piece, 128 lanes back. -/
theorem beside_right (u v : S5000x128.Idx → EReal) (p : Fin 5000) (k : Fin 128) :
    concatenate S5000x256 1 [⟨S5000x128, u⟩, ⟨S5000x128, v⟩] concatenates_S5000x128_S5000x128_S5000x256_d1 (ix2 p (Fin.natAdd 128 k))
      = v (ix2 p k) :=
  concatenate_pair_apply_right (1 : Fin S5000x256.rank) u v concatenates_S5000x128_S5000x128_S5000x256_d1 _ rfl rfl (ix2 p k)
    (fun b hb => by match b with
      | ⟨0, _⟩ => rfl
      | ⟨1, _⟩ => exact absurd rfl hb)
    (by show k.val + 128 = 128 + k.val; omega)

/-! ## The payload at an index -/

/-- What the body stores at `(p, q)`. -/
theorem stored_at (x a : Vec Ideal S5000x128 .f32) (d : Vec Ideal S5000x1 .f32) (w : Vec Ideal S256x128 .f32)
    (b : Vec Ideal S1x128 .f32) (p : Fin 5000) (q : Fin 128) :
    k0_pay1 (F := Ideal) x a d w b (ix2 p q)
      = max (((∑ k : Fin 128, x (ix2 p k) * w (ix2 (Fin.castAdd 128 k) q))
            + ∑ k : Fin 128, Ideal.div (a (ix2 p k)) (d (ix2 p (0 : Fin 1))) * w (ix2 (Fin.natAdd 128 k) q))
          + b (ix2 (0 : Fin 1) q)) (Ideal.ofBits .f32 0x00000000#32) := by
  unfold k0_pay1
  rw [maximumf_apply, addf_apply, product_at, Cert.GraphConv.sum_halves]
  simp only [beside_left, beside_right, truncf_apply, divf_apply, shapeCast_self, broadcastTo_a1_ab_apply,
    broadcastTo_1b_ab_apply, broadcast_apply]
  rfl

end Cert.GraphConv.Body

end
-- ==== Proof.Prefix.lean ====
/-
  What the kernel's host operations leave in the four arrays the region stages besides `x` itself.

  * The aggregated messages: the senders' rows of `x` gathered and added at their receivers (negative indices
    wrapped by 100000 first). Operation for operation this is the reference's own aggregate stage, so it is stated as
    that stage of the same three arguments, and never opened.
  * The degree column: the clamped in-degree vector (again the reference's own stage) cast from `[100000]` to
    `[100000, 1]`; at `(r, 0)` it reads node `r`'s degree.
  * The stacked weights: `ws` above `wm`; row `k` of the upper half is `ws`'s row `k`, row `128 + k` is `wm`'s row `k`.
  * The bias row: the bias vector cast from `[128]` to `[1, 128]`; at `(0, q)` it reads feature `q`'s bias.
-/
import proofs.«409932_j59287728554034_3_alg».proof.Proof.Gen.KernelIdeal.Frame
import proofs.«409932_j59287728554034_3_alg».proof.Proof.Gen.ReferenceIdeal.Read
import proofs.«409932_j59287728554034_3_alg».proof.Proof.LibColumn
import Idealize.ShloMosaic.Lib.StableHlo.Run
import Idealize.ShloMosaic.Lib.ValueLayout

noncomputable section

namespace Cert.GraphConv.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The three arguments the aggregate and the degree are computed from, and the three the region's other arrays come from. -/
abbrev argX (c : Dev nD) : S100000x128.Idx → EReal := m ((c : Thread nD τ).loc main_arg0)
abbrev argS (c : Dev nD) : S600000.Idx → BitVec 32 := m ((c : Thread nD τ).loc main_arg1)
abbrev argR (c : Dev nD) : S600000.Idx → BitVec 32 := m ((c : Thread nD τ).loc main_arg2)
abbrev argWs (c : Dev nD) : S128x128.Idx → EReal := m ((c : Thread nD τ).loc main_arg3)
abbrev argWm (c : Dev nD) : S128x128.Idx → EReal := m ((c : Thread nD τ).loc main_arg4)
abbrev argB (c : Dev nD) : S128.Idx → EReal := m ((c : Thread nD τ).loc main_arg5)

set_option maxRecDepth 8192 in
set_option maxHeartbeats 2000000 in
/-- The aggregated messages the region finds are the reference's aggregate stage of the same arguments. -/
theorem aggregate (c : Dev nD) :
    (V m c main_v14 : S100000x128.Idx → EReal)
      = Cert.ReferenceIdeal.Read.val_main_v14 (F := Ideal) (argX m c) (argS m c) (argR m c) := by
  dsimp only [V, hostOps0]
  after_results_simp
  rfl

set_option maxRecDepth 8192 in
set_option maxHeartbeats 2000000 in
/-- The degree column the region finds is the reference's clamped-degree stage as a column. -/
theorem degree_column (c : Dev nD) :
    (V m c main_v27 : S100000x1.Idx → EReal)
      = shapeCast S100000x1 (Cert.ReferenceIdeal.Read.val_main_v25 (F := Ideal) (argR m c)) shapeCasts_S100000_S100000x1 := by
  dsimp only [V, hostOps0]
  after_results_simp
  rfl

/-- At `(r, 0)` the degree column reads node `r`'s degree. -/
theorem degree_at (c : Dev nD) (r : Fin 100000) :
    (V m c main_v27 : S100000x1.Idx → EReal) (ix2 r (0 : Fin 1))
      = Cert.ReferenceIdeal.Read.val_main_v25 (F := Ideal) (argR m c) (ix1 r) := by
  rw [degree_column]
  exact Cert.Lib.shapeCast_a_a1_apply _ _ r 0

set_option maxRecDepth 8192 in
set_option maxHeartbeats 2000000 in
/-- The stacked weights the region finds: `ws` above `wm`. -/
theorem stacked (c : Dev nD) :
    (V m c main_v28 : S256x128.Idx → EReal)
      = concatenate S256x128 0 [⟨S128x128, argWs m c⟩, ⟨S128x128, argWm m c⟩] concatenates_S128x128_S128x128_S256x128_d0 := by
  dsimp only [V, hostOps0]
  after_results_simp
  rfl

/-- Row `k` of the upper half is `ws`'s row `k`. -/
theorem stacked_upper (c : Dev nD) (k q : Fin 128) :
    (V m c main_v28 : S256x128.Idx → EReal) (ix2 (Fin.castAdd 128 k) q) = argWs m c (ix2 k q) := by
  rw [stacked]
  exact concatenate_pair_apply_left (0 : Fin S256x128.rank) _ _ concatenates_S128x128_S128x128_S256x128_d0 _ rfl (ix2 k q)
    (fun b => by match b with
      | ⟨0, _⟩ => rfl
      | ⟨1, _⟩ => rfl)

/-- Row `128 + k` is `wm`'s row `k`. -/
theorem stacked_lower (c : Dev nD) (k q : Fin 128) :
    (V m c main_v28 : S256x128.Idx → EReal) (ix2 (Fin.natAdd 128 k) q) = argWm m c (ix2 k q) := by
  rw [stacked]
  exact concatenate_pair_apply_right (0 : Fin S256x128.rank) _ _ concatenates_S128x128_S128x128_S256x128_d0 _ rfl rfl (ix2 k q)
    (fun b hb => by match b with
      | ⟨0, _⟩ => exact absurd rfl hb
      | ⟨1, _⟩ => rfl)
    (by show k.val + 128 = 128 + k.val; omega)

set_option maxRecDepth 8192 in
set_option maxHeartbeats 2000000 in
/-- The bias row the region finds is the bias vector as one row. -/
theorem bias_row (c : Dev nD) :
    (V m c main_v26 : S1x128.Idx → EReal) = shapeCast S1x128 (argB m c) shapeCasts_S128_S1x128 := by
  dsimp only [V, hostOps0]
  after_results_simp
  rfl

/-- At `(0, q)` the bias row reads feature `q`'s bias. -/
theorem bias_at (c : Dev nD) (q : Fin 128) :
    (V m c main_v26 : S1x128.Idx → EReal) (ix2 (0 : Fin 1) q) = argB m c (ix1 q) := by
  rw [bias_row]
  exact shapeCast_a_1a_apply _ _ 0 q

end Cert.GraphConv.Prefix

end
-- ==== Proof.Rows.lean ====
/-
  The grid's geometry, with no arithmetic of the layer in it.

  The kernel runs at twenty grid points. At point `t` the three row-blocked inputs and the output are at block
  `(t, 0)` of their arrays — rows `5000 t … 5000 t + 4999`, all lanes — and the two small inputs (the stacked weights,
  the bias row) at block `(0, 0)`, which is the whole array. So entry `(p, k)` of a row block is entry
  `(5000 t + p, k)` of the array, a whole-array block reads the array itself, and row `r` of the output lies in the
  block of point `r / 5000`: the twenty output blocks cover the 100000 rows.
-/
import proofs.«409932_j59287728554034_3_alg».proof.Proof.Gen.KernelIdeal.Value
import Idealize.ShloMosaic.Lib.Pipeline.Value
import Idealize.ShloMosaic.Lib.ValueIdx

noncomputable section

namespace Cert.GraphConv.Rows

open Cert.KernelIdeal Cert.KernelIdeal.Gen Idealize.ShloMosaic Idealize.ShloMosaic.TcCoe Idealize.SL.Sem
open Idealize.ShloMosaic.ValueIdx

/-- The printed index maps, decided over the twenty grid points: the row-blocked windows are at block `(t, 0)`, the two
    whole-array windows at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block index `0 … 19` is some point's. -/
theorem index_onto : ∀ n : Fin 20, ∃ t : Fin cfg0.N, win0_5.index t = ![n.val, 0] :=
  (by decide +kernel : ∀ n : Fin 20, ∃ t : Fin grid0.N, win0_5.index t = ![n.val, 0])

/-! ## A block's entries as the array's -/

/-- Entry `(p, k)` of the block of `x` at point `t` is entry `(5000 t + p, k)` of the array. -/
theorem rows_x (t : Fin cfg0.N) (X : S100000x128.Idx → EReal) (p : Fin 5000) (k : Fin 128)
    (hr : t.val * 5000 + p.val < 100000) :
    ((cfg0.win 0).blk t).view.read (Elt Ideal) X (ix2 p k) = X (ix2 (⟨t.val * 5000 + p.val, hr⟩ : Fin 100000) k) := by
  obtain ⟨e0, e1, -⟩ := index_facts t
  show X (((cfg0.win 0).blk t).view.emb (ix2 p k)) = _
  refine congrArg X (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The same for the block of the aggregate. -/
theorem rows_agg (t : Fin cfg0.N) (X : S100000x128.Idx → EReal) (p : Fin 5000) (k : Fin 128)
    (hr : t.val * 5000 + p.val < 100000) :
    ((cfg0.win 1).blk t).view.read (Elt Ideal) X (ix2 p k) = X (ix2 (⟨t.val * 5000 + p.val, hr⟩ : Fin 100000) k) := by
  obtain ⟨-, -, e0, e1, -⟩ := index_facts t
  show X (((cfg0.win 1).blk t).view.emb (ix2 p k)) = _
  refine congrArg X (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Entry `(p, 0)` of the block of the degree column at point `t` is entry `(5000 t + p, 0)` of the column. -/
theorem rows_deg (t : Fin cfg0.N) (X : S100000x1.Idx → EReal) (p : Fin 5000)
    (hr : t.val * 5000 + p.val < 100000) :
    ((cfg0.win 2).blk t).view.read (Elt Ideal) X (ix2 p (0 : Fin 1)) = X (ix2 (⟨t.val * 5000 + p.val, hr⟩ : Fin 100000) (0 : Fin 1)) := by
  obtain ⟨-, -, -, -, e0, e1, -⟩ := index_facts t
  show X (((cfg0.win 2).blk t).view.emb (ix2 p (0 : Fin 1))) = _
  refine congrArg X (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The block of the stacked weights is the whole array at every point. -/
theorem whole_w (t : Fin cfg0.N) (X : S256x128.Idx → EReal) (k : Fin 256) (q : Fin 128) :
    ((cfg0.win 3).blk t).view.read (Elt Ideal) X (ix2 k q) = X (ix2 k q) := by
  obtain ⟨-, -, -, -, -, -, e0, e1, -⟩ := index_facts t
  show X (((cfg0.win 3).blk t).view.emb (ix2 k q)) = _
  refine congrArg X (funext fun a => Fin.ext ?_)
  match a with
  | ⟨0, _⟩ => show win0_3.index t (0 : Fin 2) * 256 + 1 * k.val = k.val; omega
  | ⟨1, _⟩ => show win0_3.index t (1 : Fin 2) * 128 + 1 * q.val = q.val; omega

/-- The block of the bias row is the whole row at every point. -/
theorem whole_b (t : Fin cfg0.N) (X : S1x128.Idx → EReal) (q : Fin 128) :
    ((cfg0.win 4).blk t).view.read (Elt Ideal) X (ix2 (0 : Fin 1) q) = X (ix2 (0 : Fin 1) q) := by
  obtain ⟨-, -, -, -, -, -, -, -, e0, e1, -⟩ := index_facts t
  show X (((cfg0.win 4).blk t).view.emb (ix2 (0 : Fin 1) q)) = _
  refine congrArg X (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## The output block -/

/-- A block-shaped value `P`, cut to what point `t` writes back, is block `t` of the array function `G` as soon as
    its entry `(p, q)` is `G`'s entry `(5000 t + p, q)`. -/
theorem cut_eq_read (t : Fin cfg0.N) (P : S5000x128.Idx → EReal) (G : S100000x128.Idx → EReal)
    (h : ∀ (p : Fin 5000) (q : Fin 128) (hr : t.val * 5000 + p.val < 100000),
      P (ix2 p q) = G (ix2 (⟨t.val * 5000 + p.val, hr⟩ : Fin 100000) q)) :
    (cfg0.win 5).cut (grid0.coords t) P = ((cfg0.win 5).blk t).view.read (Elt Ideal) G := by
  obtain ⟨-, -, -, -, -, -, -, -, -, -, e0, e1⟩ := index_facts t
  have ht : t.val < 20 := t.isLt
  funext j
  have hj0 : (j 0).val < 5000 := (j 0).isLt
  have hj1 : (j 1).val < 128 := (j 1).isLt
  show P ((cfg0.win 5).xinj (grid0.coords t) j) = G (((cfg0.win 5).blk t).view.emb j)
  have eP : (cfg0.win 5).xinj (grid0.coords t) j = ix2 (⟨(j 0).val, hj0⟩ : Fin 5000) (⟨(j 1).val, hj1⟩ : Fin 128) :=
    funext fun a => by match a with
      | ⟨0, _⟩ => rfl
      | ⟨1, _⟩ => rfl
  have eG : ((cfg0.win 5).blk t).view.emb j
      = ix2 (⟨t.val * 5000 + (j 0).val, by omega⟩ : Fin 100000) (⟨(j 1).val, hj1⟩ : Fin 128) :=
    funext fun a => Fin.ext (by
      match a with
      | ⟨0, _⟩ => show win0_5.index t (0 : Fin 2) * 5000 + 1 * (j 0).val = t.val * 5000 + (j 0).val; omega
      | ⟨1, _⟩ => show win0_5.index t (1 : Fin 2) * 128 + 1 * (j 1).val = (j 1).val; omega)
  rw [eP, eG]
  exact h _ _ _

/-- An index of the array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The twenty blocks cover the array: row `r` lies in block `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Cert.GraphConv.Rows

end
-- ==== Proof.Blocks.lean ====
/-
  From the kernel's twenty row blocks to its whole result array.

  Grid point `t` is handed rows `5000 t … 5000 t + 4999` of `x`, of the aggregate and of the degree column, and the
  whole of the stacked weights and of the bias row, and writes those rows of the result (Rows.lean). So what point `t`
  flushes is block `t` of ONE function of the arrays the region finds (`regionOut`), whose row `r` depends only on
  row `r` of `x`, of the aggregate and of the degree column; the twenty blocks cover the array, so after the run the
  result array is that function; and with the host-written arrays read back (Prefix.lean) it is the layer of Layer.lean.
-/
import proofs.«409932_j59287728554034_3_alg».proof.Proof.Gen.KernelIdeal.Value
import proofs.«409932_j59287728554034_3_alg».proof.Proof.Body
import proofs.«409932_j59287728554034_3_alg».proof.Proof.Prefix
import proofs.«409932_j59287728554034_3_alg».proof.Proof.Rows
import Idealize.ShloMosaic.Lib.Pipeline.Value

noncomputable section

namespace Cert.GraphConv.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array as one function of the five arrays the region stages: `X` and `A` by rows, `D` a column,
    `W` the stacked weights (upper half against `X`, lower half against `A / D`), `B` one row. -/
def regionOut (X A : S100000x128.Idx → EReal) (D : S100000x1.Idx → EReal) (W : S256x128.Idx → EReal)
    (B : S1x128.Idx → EReal) : S100000x128.Idx → EReal := fun i =>
  max (((∑ k : Fin 128, X (ix2 (i 0) k) * W (ix2 (Fin.castAdd 128 k) (i 1)))
        + ∑ k : Fin 128, Ideal.div (A (ix2 (i 0) k)) (D (ix2 (i 0) (0 : Fin 1))) * W (ix2 (Fin.natAdd 128 k) (i 1)))
      + B (ix2 (0 : Fin 1) (i 1))) (Ideal.ofBits .f32 0x00000000#32)

theorem regionOut_at (X A : S100000x128.Idx → EReal) (D : S100000x1.Idx → EReal) (W : S256x128.Idx → EReal)
    (B : S1x128.Idx → EReal) (r : Fin 100000) (q : Fin 128) :
    regionOut X A D W B (ix2 r q)
      = max (((∑ k : Fin 128, X (ix2 r k) * W (ix2 (Fin.castAdd 128 k) q))
            + ∑ k : Fin 128, Ideal.div (A (ix2 r k)) (D (ix2 r (0 : Fin 1))) * W (ix2 (Fin.natAdd 128 k) q))
          + B (ix2 (0 : Fin 1) q)) (Ideal.ofBits .f32 0x00000000#32) := rfl

/-- One stored entry against one entry of `regionOut`: row `p` of the loaded blocks is row `r` of the arrays. -/
theorem stored_is_regionOut (x a : Vec Ideal S5000x128 .f32) (d : Vec Ideal S5000x1 .f32) (w : Vec Ideal S256x128 .f32)
    (b : Vec Ideal S1x128 .f32) (X A : S100000x128.Idx → EReal) (D : S100000x1.Idx → EReal) (W : S256x128.Idx → EReal)
    (B : S1x128.Idx → EReal) (p : Fin 5000) (q : Fin 128) (r : Fin 100000)
    (hx : ∀ k : Fin 128, x (ix2 p k) = X (ix2 r k)) (ha : ∀ k : Fin 128, a (ix2 p k) = A (ix2 r k))
    (hd : d (ix2 p (0 : Fin 1)) = D (ix2 r (0 : Fin 1))) (hw : ∀ (k : Fin 256) (q : Fin 128), w (ix2 k q) = W (ix2 k q))
    (hb : ∀ q : Fin 128, b (ix2 (0 : Fin 1) q) = B (ix2 (0 : Fin 1) q)) :
    k0_pay1 (F := Ideal) x a d w b (ix2 p q) = regionOut X A D W B (ix2 r q) := by
  rw [Cert.GraphConv.Body.stored_at, regionOut_at]
  simp only [hx, ha, hd, hw, hb]

/-- WHAT POINT `t` WRITES BACK is block `t` of `regionOut` of the arrays as the region finds them. -/
theorem flushed_eq (c : Dev nD) (t : Fin cfg0.N) :
    (dats m 0 c).flushed 5 t = ((cfg0.win 5).blk t).view.read (Elt Ideal)
      (regionOut (V m c main_arg0) (V m c main_v14) (V m c main_v27) (V m c main_v28) (V m c main_v26)) := by
  rw [flushed5]
  unfold out0_5
  rw [View.canon_unit_zero origin]
  simp only [View.ld_unit_zero (S := S5000x128) origin, View.ld_unit_zero (S := S5000x1) origin,
    View.ld_unit_zero (S := S256x128) origin, View.ld_unit_zero (S := S1x128) origin]
  refine Rows.cut_eq_read t _ _ fun p q hr => ?_
  exact stored_is_regionOut (iblk m c 0 t) (iblk m c 1 t) (iblk m c 2 t) (iblk m c 3 t) (iblk m c 4 t)
    (V m c main_arg0) (V m c main_v14) (V m c main_v27) (V m c main_v28) (V m c main_v26) p q ⟨t.val * 5000 + p.val, hr⟩
    (fun k => Rows.rows_x t (V m c main_arg0) p k hr)
    (fun k => Rows.rows_agg t (V m c main_v14) p k hr)
    (Rows.rows_deg t (V m c main_v27) p hr)
    (fun k q' => Rows.whole_w t (V m c main_v28) k q')
    (fun q' => Rows.whole_b t (V m c main_v26) q')

/-- THE ARRAY after the run: `regionOut` of the arrays the region finds. -/
theorem final_region (c : Dev nD) : (dats m 0 c).arrAt 5 cfg0.N
    = regionOut (V m c main_arg0) (V m c main_v14) (V m c main_v27) (V m c main_v28) (V m c main_v26) :=
  (dats m 0 c).arrAt_eq_of_cover 5 _ (fun t _ => flushed_eq m c t) Rows.covered

/-- `regionOut` is the layer once the degree column, the stacked weights and the bias row are read as the degree
    vector, the two weight matrices and the bias vector they were made from. -/
theorem regionOut_eq_layer (X A : S100000x128.Idx → EReal) (D : S100000x1.Idx → EReal) (W : S256x128.Idx → EReal)
    (B : S1x128.Idx → EReal) (deg : S100000.Idx → EReal) (ws wm : S128x128.Idx → EReal) (b : S128.Idx → EReal)
    (hD : ∀ r : Fin 100000, D (ix2 r (0 : Fin 1)) = deg (ix1 r))
    (hU : ∀ k q : Fin 128, W (ix2 (Fin.castAdd 128 k) q) = ws (ix2 k q))
    (hL : ∀ k q : Fin 128, W (ix2 (Fin.natAdd 128 k) q) = wm (ix2 k q))
    (hB : ∀ q : Fin 128, B (ix2 (0 : Fin 1) q) = b (ix1 q)) :
    regionOut X A D W B = Cert.GraphConv.layer X A deg ws wm b := by
  funext i
  obtain ⟨r, q, rfl⟩ : ∃ (r : Fin 100000) (q : Fin 128), i = ix2 r q := ⟨i 0, i 1, eq_ix2 i⟩
  rw [regionOut_at, Cert.GraphConv.layer_at]
  simp only [hD, hU, hL, hB]

open Cert.GraphConv.Prefix in
/-- With the host-written arrays read back: the layer of the arguments, of the aggregate and of the degree. -/
theorem regionOut_is_layer (c : Dev nD) :
    regionOut (V m c main_arg0) (V m c main_v14) (V m c main_v27) (V m c main_v28) (V m c main_v26)
      = Cert.GraphConv.layer (argX m c)
          (Cert.ReferenceIdeal.Read.val_main_v14 (F := Ideal) (argX m c) (argS m c) (argR m c))
          (Cert.ReferenceIdeal.Read.val_main_v25 (F := Ideal) (argR m c)) (argWs m c) (argWm m c) (argB m c) := by
  have hX : (V m c main_arg0 : S100000x128.Idx → EReal) = argX m c := V_main_arg0 m c
  have hA := Prefix.aggregate m c
  rw [regionOut_eq_layer _ _ _ _ _ _ _ _ _ (Prefix.degree_at m c) (Prefix.stacked_upper m c) (Prefix.stacked_lower m c)
    (Prefix.bias_at m c), hX, hA]

/-- The run, read: the result array at the layer, the six arguments unchanged. -/
theorem run : θ_run defs (onTc (τ := τ) (main (F := Ideal))) ⟨m, fun _ => 0, ρ⟩ fun r => ∀ c : Dev nD,
      r.2.mem ((c : Thread nD τ).loc main_v29) = Cert.GraphConv.layer (Prefix.argX m c)
          (Cert.ReferenceIdeal.Read.val_main_v14 (F := Ideal) (Prefix.argX m c) (Prefix.argS m c) (Prefix.argR m c))
          (Cert.ReferenceIdeal.Read.val_main_v25 (F := Ideal) (Prefix.argR m c)) (Prefix.argWs m c) (Prefix.argWm m c) (Prefix.argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((final_region m c).trans (regionOut_is_layer m c)), (h c).2⟩)
    (Cert.KernelIdeal.Value.run_blocks m ρ)

end Cert.GraphConv.Blocks

end
-- ==== Proof.Reference.lean ====
/-
  The reference's result is the layer (Layer.lean) of its own aggregated-messages array and clamped-degree vector.

  Index by index: its two products are the plain sums over the 128 contraction indices, the second one's left operand
  the quotient of the aggregate by the degree broadcast from a vector to a column to the whole array (so at `(r, k)` it
  reads the degree of node `r`); the bias is broadcast from a vector to a row to the whole array (so at `(r, q)` it
  reads the bias of feature `q`); the rectifier is the maximum with a broadcast zero.
-/
import proofs.«409932_j59287728554034_3_alg».proof.Proof.Gen.ReferenceIdeal.Read
import proofs.«409932_j59287728554034_3_alg».proof.Proof.Layer

noncomputable section

namespace Cert.GraphConv.Reference

open Cert.ReferenceIdeal Cert.ReferenceIdeal.Gen Cert.ReferenceIdeal.Read Idealize.ShloMosaic Idealize.ShloMosaic.ValueIdx

/-! ## Where each stage reads its operand -/

theorem self_lhs (r : Fin 100000) (q k : Fin 128) : lidx_main_v29 (ix2 r q) k = ix2 r k :=
  funext fun a => by match a with
    | ⟨0, _⟩ => rfl
    | ⟨1, _⟩ => rfl
theorem self_rhs (r : Fin 100000) (q k : Fin 128) : ridx_main_v29 (ix2 r q) k = ix2 k q :=
  funext fun a => by match a with
    | ⟨0, _⟩ => rfl
    | ⟨1, _⟩ => rfl
theorem msg_lhs (r : Fin 100000) (q k : Fin 128) : lidx_main_v30 (ix2 r q) k = ix2 r k :=
  funext fun a => by match a with
    | ⟨0, _⟩ => rfl
    | ⟨1, _⟩ => rfl
theorem msg_rhs (r : Fin 100000) (q k : Fin 128) : ridx_main_v30 (ix2 r q) k = ix2 k q :=
  funext fun a => by match a with
    | ⟨0, _⟩ => rfl
    | ⟨1, _⟩ => rfl
/-- The degree read at `(r, k)` of the broadcast array is the degree of node `r`. -/
theorem degree_at (r : Fin 100000) (k : Fin 128) : idx_main_v26 (idx_main_v27 (ix2 r k)) = ix1 r :=
  funext fun a => by match a with
    | ⟨0, _⟩ => rfl
/-- The bias read at `(r, q)` of the broadcast array is the bias of feature `q`. -/
theorem bias_at (r : Fin 100000) (q : Fin 128) : idx_main_v32 (idx_main_v33 (ix2 r q)) = ix1 q :=
  funext fun a => by match a with
    | ⟨0, _⟩ => rfl

/-- The mean of the in-neighbours' features at `(r, k)`: the aggregate there over node `r`'s degree. -/
theorem mean_at (x0 : (⟨S100000x128, .f32⟩ : BufTy).Contents (Elt Ideal)) (x1 x2 : (⟨S600000, .i32⟩ : BufTy).Contents (Elt Ideal))
    (r : Fin 100000) (k : Fin 128) :
    val_main_v28 (F := Ideal) x0 x1 x2 (ix2 r k)
      = Ideal.div (val_main_v14 (F := Ideal) x0 x1 x2 (ix2 r k)) (val_main_v25 (F := Ideal) x2 (ix1 r)) := by
  rw [val_main_v28_apply, val_main_v27_apply, val_main_v26_apply, degree_at]
  rfl

/-! ## The result -/

/-- The reference's result array, as a function of its six arguments, is the layer of its aggregate and degree stages. -/
theorem result_is_layer (x0 : (⟨S100000x128, .f32⟩ : BufTy).Contents (Elt Ideal)) (x1 x2 : (⟨S600000, .i32⟩ : BufTy).Contents (Elt Ideal))
    (x3 x4 : (⟨S128x128, .f32⟩ : BufTy).Contents (Elt Ideal)) (x5 : (⟨S128, .f32⟩ : BufTy).Contents (Elt Ideal)) :
    val_main_v35 (F := Ideal) x0 x1 x2 x3 x4 x5
      = Cert.GraphConv.layer x0 (val_main_v14 (F := Ideal) x0 x1 x2) (val_main_v25 (F := Ideal) x2) x3 x4 x5 := by
  funext i
  obtain ⟨r, q, rfl⟩ : ∃ (r : Fin 100000) (q : Fin 128), i = ix2 r q := ⟨i 0, i 1, eq_ix2 i⟩
  rw [Cert.GraphConv.layer_at, val_main_v35_apply, val_main_v34_apply, val_main_v31_apply, val_main_v29_apply, val_main_v30_apply,
    val_main_v33_apply, val_main_v32_apply, val_main_call0_v0_apply, val_main_call0_cst_apply]
  simp only [self_lhs, self_rhs, msg_lhs, msg_rhs, mean_at, bias_at, Ideal.maximumf_def, Ideal.addf_def, Ideal.ofBits_def]

end Cert.GraphConv.Reference

end
-- ==== Proof.lean ====
/-
  A graph-convolution layer on a TPU against its plain jnp reference, over the extended reals.

  Both programs begin with the same host operations: the senders' rows of `x` gathered (negative indices wrapped
  by 100000), added up at their receivers into the aggregate `agg`, ones added up at the receivers into the
  in-degree, and the in-degree clamped from below by one to `deg`. Operation for operation and word for word these
  are one computation, so both sides are stated over the SAME two stages of the same arguments and neither the gather
  nor the scatter is ever opened.

  After that the reference computes `max (x·ws + (agg / deg)·wm + bias, 0)` with two 128-wide products, and the
  kernel, twenty blocks of 5000 rows at a time, computes `max ([x | agg / deg]·[ws ; wm] + bias, 0)` with ONE 256-wide
  product of the two operands set side by side against the two weight matrices stacked. Changes of float format are the
  identity on the extended reals, a product into a zero accumulator is the plain sum, and a sum over 256 = 128 + 128
  contraction indices is the sum of its halves — commutativity and associativity of `+` only, so no entry needs to be
  finite and the precondition is never opened. Hence both result arrays are the one function `Cert.GraphConv.layer`
  (Layer.lean) of the arguments, the aggregate and the degree:
    * the reference, stage by stage (Reference.lean);
  * the kernel: its body's stored entry (Body.lean), block `t` of the result as block `t` of one whole-array
      function and the twenty blocks' cover (Blocks.lean), the host-written operands read back (Prefix.lean).

  The three frames are the generated ones (the reference's is its run with the result dropped); the idealization
  rewrote nothing, so `preserves` is `True`.
-/
import proofs.«409932_j59287728554034_3_alg».proof.Defs
import proofs.«409932_j59287728554034_3_alg».proof.Proof.Gen.Kernel
import proofs.«409932_j59287728554034_3_alg».proof.Proof.Gen.Kernel.Skeleton
import proofs.«409932_j59287728554034_3_alg».proof.Proof.Gen.Kernel.Launch
import proofs.«409932_j59287728554034_3_alg».proof.Proof.Gen.Kernel.Points
import proofs.«409932_j59287728554034_3_alg».proof.Proof.Gen.Kernel.Frame
import proofs.«409932_j59287728554034_3_alg».proof.Proof.Gen.KernelIdeal
import proofs.«409932_j59287728554034_3_alg».proof.Proof.Gen.KernelIdeal.Skeleton
import proofs.«409932_j59287728554034_3_alg».proof.Proof.Gen.KernelIdeal.Launch
import proofs.«409932_j59287728554034_3_alg».proof.Proof.Gen.KernelIdeal.Points
import proofs.«409932_j59287728554034_3_alg».proof.Proof.Gen.KernelIdeal.Frame
import proofs.«409932_j59287728554034_3_alg».proof.Proof.Gen.ReferenceIdeal
import proofs.«409932_j59287728554034_3_alg».proof.Proof.Gen.Pre_finite_inputs
import proofs.«409932_j59287728554034_3_alg».proof.Proof.Gen.KernelIdeal.Value
import proofs.«409932_j59287728554034_3_alg».proof.Proof.Gen.ReferenceIdeal.Run
import proofs.«409932_j59287728554034_3_alg».proof.Proof.Gen.ReferenceIdeal.Read
import proofs.«409932_j59287728554034_3_alg».proof.Proof.Blocks
import proofs.«409932_j59287728554034_3_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference is a straight line of host operations: it runs, and its run's post keeps the arguments. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both result arrays are the layer of those arguments, of the
    aggregate and of the clamped degree. -/
theorem algebraic : Cert.algebraic_KernelIdeal_ReferenceIdeal := by
  intro m ρ m' ρ' _ hagree
  refine ⟨_, Cert.GraphConv.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v35_eq, Cert.GraphConv.Reference.result_is_layer, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
